-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S64x12 : Shape := ⟨2, ![64, 12]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S64x12 : S_.BroadcastsInDim S64x12 (![] : Fin 0 → Fin S64x12.rank)
  reducesTo_S64x12_S_d0_1 : S64x12.ReducesTo [0, 1] S_

variable [Facts]

def fn {F : FTy → Type} [FloatOps F] (main_arg0 : FVec F S100000x12 .f32) (main_arg1 : FVec F S64x12 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S64x12 .f32 := Host.absf main_arg1
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  main_v8
-- ==== Kernel.lean ====
abbrev S100000x12 : Shape := ⟨2, ![100000, 12]⟩
abbrev S64x12 : Shape := ⟨2, ![64, 12]⟩
abbrev S12x100000 : Shape := ⟨2, ![12, 100000]⟩
abbrev S12x64 : Shape := ⟨2, ![12, 64]⟩
abbrev S64x100000 : Shape := ⟨2, ![64, 100000]⟩
abbrev S12x32768 : Shape := ⟨2, ![12, 32768]⟩
abbrev S64x32768 : Shape := ⟨2, ![64, 32768]⟩
abbrev S100000x64 : Shape := ⟨2, ![100000, 64]⟩

abbrev nBuf : Space → Nat
  | .hbm => 6
  | .vmem => 5
  | .smem => 0
  | _ => 0

abbrev bufTy : (tb : Table) → Fin (tcTables nBuf tb) → BufTy
  | .hbm, ⟨0, _⟩ => ⟨S100000x12, .f32⟩
  | .hbm, ⟨1, _⟩ => ⟨S64x12, .f32⟩
  | .hbm, ⟨2, _⟩ => ⟨S12x100000, .f32⟩
  | .hbm, ⟨3, _⟩ => ⟨S12x64, .f32⟩
  | .hbm, ⟨4, _⟩ => ⟨S64x100000, .f32⟩
  | .hbm, ⟨5, _⟩ => ⟨S100000x64, .f32⟩
  | .local _ .vmem, ⟨0, _⟩ => ⟨S12x64, .f32⟩
  | .local _ .vmem, ⟨1, _⟩ => ⟨S12x32768, .f32⟩
  | .local _ .vmem, ⟨2, _⟩ => ⟨S12x32768, .f32⟩
  | .local _ .vmem, ⟨3, _⟩ => ⟨S64x32768, .f32⟩
  | .local _ .vmem, ⟨4, _⟩ => ⟨S64x32768, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x12_S12x100000_1_0 : S100000x12.Transposes [1, 0] S12x100000
  transposes_S64x12_S12x64_1_0 : S64x12.Transposes [1, 0] S12x64
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S12x32768_S12x32768_0_0 : ∀ a, (![0, 0] : Fin 2 → Nat) a + S12x32768.size a ≤ S12x32768.size a
  h_S12x32768 : 0 < S12x32768.numel
  shapeCasts_S12x32768_S12x32768 : S12x32768.ShapeCasts S12x32768
  inb_S64x32768_S64x32768_0_0 : ∀ a, (![0, 0] : Fin 2 → Nat) a + S64x32768.size a ≤ S64x32768.size a
  h_S64x32768 : 0 < S64x32768.numel
  transposes_S64x100000_S100000x64_1_0 : S64x100000.Transposes [1, 0] S100000x64
  dot_S12x64_S12x32768_S64x32768_0_0_1_1_n_n_wf : DotDims.WF S12x64 S12x32768 S64x32768 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12x64.size a ≤ S12x64.size a
  hwx0_0 : ∀ i : grid0.Coords, EltTy.bits .f32 = 32 ∨ (Rect.block (s := S12x64) S12x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12x32768.size a < S12x100000.size a
  hwx0_1 : ∀ i : grid0.Coords, EltTy.bits .f32 = 32 ∨ (Rect.unit (s := S12x100000) (fun a => cc0_transform_1 i a * S12x32768.size a) (fun a => (Pipeline.Clip.of (cc0_transform_1 i a) (S12x32768.size a) (S12x100000.size a)).extent (S12x32768.size a)) fun a => Pipeline.Clip.inb (Pipeline.Clip.ok_of (hstart0_1 i a))).WholeWords (EltTy.packing .f32)
  hwxs0_1 : ∀ i : grid0.Coords, EltTy.bits .f32 = 32 ∨ (Rect.unit (s := S12x32768) (fun _ => 0) (fun a => (Pipeline.Clip.of (cc0_transform_1 i a) (S12x32768.size a) (S12x100000.size a)).extent (S12x32768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x32768.size a < S64x100000.size a
  hwx0_2 : ∀ i : grid0.Coords, EltTy.bits .f32 = 32 ∨ (Rect.unit (s := S64x100000) (fun a => cc0_transform_2 i a * S64x32768.size a) (fun a => (Pipeline.Clip.of (cc0_transform_2 i a) (S64x32768.size a) (S64x100000.size a)).extent (S64x32768.size a)) fun a => Pipeline.Clip.inb (Pipeline.Clip.ok_of (hstart0_2 i a))).WholeWords (EltTy.packing .f32)
  hwxs0_2 : ∀ i : grid0.Coords, EltTy.bits .f32 = 32 ∨ (Rect.unit (s := S64x32768) (fun _ => 0) (fun a => (Pipeline.Clip.of (cc0_transform_2 i a) (S64x32768.size a) (S64x100000.size a)).extent (S64x32768.size a)) fun a => (Nat.zero_add _).trans_le (Pipeline.Clip.extent_le (Pipeline.Clip.ok_of (hstart0_2 i a)))).WholeWords (EltTy.packing .f32)

variable [Facts₀]

def dot_S12x64_S12x32768_S64x32768_0_0_1_1_n_n : DotDims S12x64 S12x32768 S64x32768 where
  lhsContracting := [0]
  rhsContracting := [0]
  lhsNonContracting := [1]
  rhsNonContracting := [1]
  lhsBatch := []
  rhsBatch := []
  wf := dot_S12x64_S12x32768_S64x32768_0_0_1_1_n_n_wf

abbrev win0_0 : Pipeline.Window sig grid0 :=
  Pipeline.Window.ofSpec (Memref.whole main_v1) S12x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S12x32768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S64x32768.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x12 : Shape := ⟨2, ![100000, 12]⟩
abbrev S64x12 : Shape := ⟨2, ![64, 12]⟩
abbrev S12x64 : Shape := ⟨2, ![12, 64]⟩
abbrev S100000x64 : Shape := ⟨2, ![100000, 64]⟩

abbrev nBuf : Space → Nat
  | .hbm => 4
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S64x12, .f32⟩
  | .hbm, ⟨2, _⟩ => ⟨S12x64, .f32⟩
  | .hbm, ⟨3, _⟩ => ⟨S100000x64, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x12_S12x64_1_0 : S64x12.Transposes [1, 0] S12x64
  dot_S100000x12_S12x64_S100000x64_1_0_0_1_n_n_wf : DotDims.WF S100000x12 S12x64 S100000x64 [1] [0] [0] [1] [] []

variable [Facts₀]

def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf

class Facts : Prop extends Facts₀ where

variable [Facts]
-- ==== Proof.BodyTripleBits.lean ====
/-
  The kernel body on its three staging buffers.

  At one grid point the body loads the whole [12, 64] weight buffer and the whole [12, 32768] block of columns,
  multiplies the transpose of the first by the second on the matrix unit into a zero accumulator, reads the
  [64, 32768] output buffer (a value nothing uses) and stores the product over all of it. So from any contents
  w, x, o of the three buffers the body runs to contents w, x and the product of w and x: the first two buffers
  are only read, the third is overwritten whole. Nothing here depends on what the numbers are, so the statement
  holds at every reading of the floats.
-/
import proofs.«128156_g55482387530029_cont_9to1_m_211_22_alg».proof.Proof.Gen.Kernel.Frame
import proofs.«128156_g55482387530029_cont_9to1_m_211_22_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses: each is the whole buffer, offsets zero and the buffer's own sizes. -/
abbrev boxW : Rect S12x64 := Rect.unit (s := S12x64) ![0, 0] S12x64.size inb_S12x64_S12x64_0_0
abbrev boxX : Rect S12x32768 := Rect.unit (s := S12x32768) ![0, 0] S12x32768.size inb_S12x32768_S12x32768_0_0
abbrev boxO : Rect S64x32768 := Rect.unit (s := S64x32768) ![0, 0] S64x32768.size inb_S64x32768_S64x32768_0_0

theorem offs_zero : (![0, 0] : Fin 2 → Nat) = fun _ => 0 := funext fun a => by fin_cases a <;> rfl

/-- The one store goes through the whole output buffer, so it covers every position of it. -/
theorem store_covers (p : Vec F S64x32768 .f32) (y : S64x32768.Idx) :
    ∃ pc ∈ ([⟨boxO, p⟩] : List (View.Piece (Elt F) S64x32768 .f32)), y ∈ pc.1.set :=
  View.cover_of_tiled [⟨boxO, p⟩] S64x32768.size (by rfl) y

/-- What the one whole-buffer store leaves, from whole-buffer loads of the two inputs: the product itself. -/
theorem stored_eq (w : Vec F S12x64 .f32) (x : Vec F S12x32768 .f32) :
    View.canon [(⟨boxO, k0_pay1 (View.ld w boxW) (View.ld x boxX)⟩ : View.Piece (Elt F) S64x32768 .f32)] = k0_pay1 w x := by
  rw [View.canon_unit_zero offs_zero, View.ld_unit_zero (S := S12x64) offs_zero, View.ld_unit_zero (S := S12x32768) offs_zero]

set_option maxHeartbeats 1000000 in
/-- The body on whole staging memrefs holding w, x and anything: it ends with w and x in place and the product of
    w and x in the third. -/
theorem sound_kernel (c : Dev nD) (E : Set ℕ) (i : grid0.Coords)
    (arg1 : Memref sig .tc .vmem S12x64 .f32) (harg1 : arg1.IsWhole)
    (arg2 : Memref sig .tc .vmem S12x32768 .f32) (harg2 : arg2.IsWhole)
    (arg3 : Memref sig .tc .vmem S64x32768 .f32) (harg3 : arg3.IsWhole)
    (w : Vec F S12x64 .f32) (x : Vec F S12x32768 .f32) (K : PUnit → sProp 𝕄) :
    iprop(owns (c : Thread nD τ) arg1 fullShare w ∗ owns (c : Thread nD τ) arg2 fullShare x
        ∗ (∃ o, owns (c : Thread nD τ) arg3 fullShare o)
        ∗ (iprop(owns (c : Thread nD τ) arg1 fullShare w ∗ owns (c : Thread nD τ) arg2 fullShare x
            ∗ owns (c : Thread nD τ) arg3 fullShare (k0_pay1 w x)) -∗ K ⟨⟩))
      ⊢ wp frame (wpE (defs₀ (F := F)) Variants.none c none) E (cc0__linear_t_body i arg1 harg1 arg2 harg2 arg3 harg3) K := by
  simp only [cc0__linear_t_body_eq_skeleton]; unfold cc0__linear_t_body_skel
  unfold owns
  iintro ⟨⟨%f0, %hf0, H0⟩, ⟨%f1, %hf1, H1⟩, ⟨%o, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers _)]
  exact stored_eq _ _

end Cert.Kernel.Body

end
-- ==== Proof.FrameBits.lean ====
/-
  The word-level kernel's frame.

  The frame claim says nothing of the result, and at the word level the matrix unit's product is a function of its
  whole operands that nothing unfolds, so what the body stores at the last point depends on the unnamed tail of the
  clipped column block. The result's window is therefore FORGOTTEN: its buffer is handed to the body at any contents
  and taken back at any contents, and the [64, 100000] array it is written back to ends at some contents. The
  transpose after the region reads that array and writes only the result of @main, of which the frame claims
  nothing. The two arguments are no array of the pipeline and no buffer the transpose writes, so they end as the
  region found them, which is as launched: the two transposes before the region write their own results only.
-/
import proofs.«128156_g55482387530029_cont_9to1_m_211_22_alg».proof.Proof.BodyTripleBits
import Idealize.ShloMosaic.Lib.Pipeline.FrameSuffix

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents nothing names: the result's. -/
def forgets : Fin 3 → Bool := fun w => w.val == 2

/-- The part of point t's column block that lies inside the [12, 100000] array. -/
abbrev xpart (c : Dev nD) (t : Fin cfg0.N) : (win0_1.xblock (grid0.coords t)).Idx → Elt F .f32 := iblk m c 1 t

/-- The arrays as the region finds them; after the body the weights' buffer at the weights, the column block's at
    the block's part inside the array filled out with the zero word, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (xpart m c t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => Scalar.ofBits .f32 0#32) (xpart m c t) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) :
    (dats m 0 c).before 1 t d = win0_1.fill (grid0.coords t) d (xpart m c t) := by
  rw [Dat.before_fetched _ 1 t (fetch0_1 t)]
  unfold Dat.fetched Dat.blockOf
  dsimp only [dats]
  rfl

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the clipped input's buffer stated on the part its fetch fills, the result's at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel (F := F) c Set.univ (grid0.coords t) _ _ _ _ _ _ (iblk m c 0 t)
    (win0_1.fill (grid0.coords t) d1 (xpart m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after0]; iexact H0
  isplitl [H1]
  · iexists d1
    rw [after1, win0_1.cut_fill]; iexact H1
  · iexists _; iexact H2

/-- The library's body obligation with the result's window forgotten, at every point. -/
theorem body_obligation (c : Dev nD) :
    BodyObligationLoose (dats (F := F) m 0 c) (defs₀ (F := F)) Variants.none () Set.univ forgets := fun t => by
  rw [bigSep_W0, bigSep_W0]
  exact sound_body m c t

/-- The transpose after the region writes the result of @main only. -/
theorem tail_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [Finset.mem_singleton]
  exact Proc.devRef_injective _ hb

set_option backward.isDefEq.respectTransparency.types false in
/-- Every weakly fair execution of @main ends; the input arrays of the pipeline end as the region found them and
    every other buffer but the result of @main too. -/
theorem run_main : θ_run defs (onTc (τ := τ) (main (F := F))) (s₀ m ρ)
    (Pipeline.RDat.FramePostR (cfgs 0) (fun c => (dats m 0 c).toRForget forgets) {main_v3} (V m)) :=
  Pipeline.RDat.θ_run_frame_around_T cfgs (0 : Fin 1) launch0 defs₀ Variants.none (fun c => (dats m 0 c).toRForget forgets) {main_v3} m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The word-level kernel's frame: it runs to the end and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.Run

end
-- ==== Proof.BodyTriple.lean ====
/-
  The kernel body on its three staging buffers.

  At one grid point the body loads the whole [12, 64] weight buffer and the whole [12, 32768] block of columns,
  multiplies the transpose of the first by the second on the matrix unit into a zero accumulator, reads the
  [64, 32768] output buffer (a value nothing uses) and stores the product over all of it. So from any contents
  w, x, o of the three buffers the body runs to contents w, x and the product of w and x: the first two buffers
  are only read, the third is overwritten whole. Nothing here depends on what the numbers are, so the statement
  holds at every reading of the floats.
-/
import proofs.«128156_g55482387530029_cont_9to1_m_211_22_alg».proof.Proof.Gen.KernelIdeal.Frame
import proofs.«128156_g55482387530029_cont_9to1_m_211_22_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses: each is the whole buffer, offsets zero and the buffer's own sizes. -/
abbrev boxW : Rect S12x64 := Rect.unit (s := S12x64) ![0, 0] S12x64.size inb_S12x64_S12x64_0_0
abbrev boxX : Rect S12x32768 := Rect.unit (s := S12x32768) ![0, 0] S12x32768.size inb_S12x32768_S12x32768_0_0
abbrev boxO : Rect S64x32768 := Rect.unit (s := S64x32768) ![0, 0] S64x32768.size inb_S64x32768_S64x32768_0_0

theorem offs_zero : (![0, 0] : Fin 2 → Nat) = fun _ => 0 := funext fun a => by fin_cases a <;> rfl

/-- The one store goes through the whole output buffer, so it covers every position of it. -/
theorem store_covers (p : Vec F S64x32768 .f32) (y : S64x32768.Idx) :
    ∃ pc ∈ ([⟨boxO, p⟩] : List (View.Piece (Elt F) S64x32768 .f32)), y ∈ pc.1.set :=
  View.cover_of_tiled [⟨boxO, p⟩] S64x32768.size (by rfl) y

/-- What the one whole-buffer store leaves, from whole-buffer loads of the two inputs: the product itself. -/
theorem stored_eq (w : Vec F S12x64 .f32) (x : Vec F S12x32768 .f32) :
    View.canon [(⟨boxO, k0_pay1 (View.ld w boxW) (View.ld x boxX)⟩ : View.Piece (Elt F) S64x32768 .f32)] = k0_pay1 w x := by
  rw [View.canon_unit_zero offs_zero, View.ld_unit_zero (S := S12x64) offs_zero, View.ld_unit_zero (S := S12x32768) offs_zero]

set_option maxHeartbeats 1000000 in
/-- The body on whole staging memrefs holding w, x and anything: it ends with w and x in place and the product of
    w and x in the third. -/
theorem sound_kernel (c : Dev nD) (E : Set ℕ) (i : grid0.Coords)
    (arg1 : Memref sig .tc .vmem S12x64 .f32) (harg1 : arg1.IsWhole)
    (arg2 : Memref sig .tc .vmem S12x32768 .f32) (harg2 : arg2.IsWhole)
    (arg3 : Memref sig .tc .vmem S64x32768 .f32) (harg3 : arg3.IsWhole)
    (w : Vec F S12x64 .f32) (x : Vec F S12x32768 .f32) (K : PUnit → sProp 𝕄) :
    iprop(owns (c : Thread nD τ) arg1 fullShare w ∗ owns (c : Thread nD τ) arg2 fullShare x
        ∗ (∃ o, owns (c : Thread nD τ) arg3 fullShare o)
        ∗ (iprop(owns (c : Thread nD τ) arg1 fullShare w ∗ owns (c : Thread nD τ) arg2 fullShare x
            ∗ owns (c : Thread nD τ) arg3 fullShare (k0_pay1 w x)) -∗ K ⟨⟩))
      ⊢ wp frame (wpE (defs₀ (F := F)) Variants.none c none) E (cc0__linear_t_body i arg1 harg1 arg2 harg2 arg3 harg3) K := by
  simp only [cc0__linear_t_body_eq_skeleton]; unfold cc0__linear_t_body_skel
  unfold owns
  iintro ⟨⟨%f0, %hf0, H0⟩, ⟨%f1, %hf1, H1⟩, ⟨%o, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers _)]
  exact stored_eq _ _

end Cert.KernelIdeal.Body

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.Payload.lean ====
/-
  The product the body stores, read at one entry.

  Over the extended reals the matrix unit's product of the transpose of a [12, 64] matrix w with a [12, 32768]
  matrix x, into a zero accumulator, has at row h and column q the sum over the twelve contraction positions k of
  w[k, h] * x[k, q]. So column q of the result reads column q of x and no other column: two right factors that
  agree on a column give products that agree on that column.
-/
import proofs.«128156_g55482387530029_cont_9to1_m_211_22_alg».proof.Proof.Gen.KernelIdeal.Skeleton
import proofs.«128156_g55482387530029_cont_9to1_m_211_22_alg».proof.Proof.LibMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The two shape casts of the body are casts of a shape to itself: the stored value is the product of the two
    loaded matrices themselves. -/
theorem pay_eq (w : Vec Ideal S12x64 .f32) (x : Vec Ideal S12x32768 .f32) :
    k0_pay1 (F := Ideal) w x
      = matmul (F := Ideal) (φ₁ := .f32) (φ₂ := .f32) dot_S12x64_S12x32768_S64x32768_0_0_1_1_n_n none w x (constant S64x32768 .f32 0x00000000#32) := by
  unfold k0_pay1
  exact congrArg₂ (fun (a : FVec Ideal S12x64 .f32) (b : FVec Ideal S12x32768 .f32) =>
      matmul (F := Ideal) dot_S12x64_S12x32768_S64x32768_0_0_1_1_n_n none a b (constant S64x32768 .f32 0x00000000#32))
    (shapeCast_self w _) (shapeCast_self x _)

/-- The stored product at entry (h, q): the accumulator is zero, so only the sum is left. -/
theorem pay_apply (w : Vec Ideal S12x64 .f32) (x : Vec Ideal S12x32768 .f32) (h : Fin 64) (q : Fin 32768) :
    k0_pay1 (F := Ideal) w x (ix2 h q) = ∑ k : Fin 12, w (ix2 k h) * x (ix2 k q) := by
  refine (congrFun (pay_eq w x) (ix2 h q)).trans ?_
  refine (Cert.Lib.MatMul.matmulT_apply (K := 12) (A := 64) (B := 32768) (φ₁ := .f32) (φ₂ := .f32) Facts₀.dot_S12x64_S12x32768_S64x32768_0_0_1_1_n_n_wf none w x _ h q).trans ?_
  show Ideal.ofBits .f32 0x00000000#32 + _ = _
  rw [Ideal.ofBits_zero_f32, zero_add]

/-- Right factors that agree on column q give products that agree on column q. -/
theorem pay_cols (w : Vec Ideal S12x64 .f32) (x x' : Vec Ideal S12x32768 .f32) (h : Fin 64) (q : Fin 32768)
    (hx : ∀ k : Fin 12, x (ix2 k q) = x' (ix2 k q)) :
    k0_pay1 (F := Ideal) w x (ix2 h q) = k0_pay1 (F := Ideal) w x' (ix2 h q) := by
  rw [pay_apply, pay_apply]
  exact Finset.sum_congr rfl fun k _ => by rw [hx k]

end Cert.KernelIdeal.Payload

end
-- ==== Proof.RunIdeal.lean ====
/-
  The run of the idealized kernel's pallas_call, with every array named.

  The grid has four points; point t works on columns 32768 t .. 32768 t + 32767 of the transposed features
  (a [12, 100000] array) and of the transposed result (a [64, 100000] array). 100000 is not a multiple of 32768, so
  the last point's blocks hang over the arrays' end: its fetch fills only the first 1696 columns of the staging
  buffer and leaves the others at values nothing names, and its write-back writes only those 1696 columns.

  What the buffers hold after the body at point t: the weights' buffer the whole [12, 64] weight array; the column
  block's buffer the block's part inside the array, filled out with zero; the result's buffer the product of
  those two. The body really multiplies by a block whose tail is unnamed, but column q of the product reads only
  column q of the block, so on the columns that are written back the stored product is the named one: that is
  all the obligation of a clipped window asks.
-/
import proofs.«128156_g55482387530029_cont_9to1_m_211_22_alg».proof.Proof.BodyTriple
import proofs.«128156_g55482387530029_cont_9to1_m_211_22_alg».proof.Proof.Payload
import Idealize.ShloMosaic.Lib.Pipeline.FrameSuffix

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- The weights as the region finds them: window 0's one block is the whole [12, 64] array. -/
abbrev wblk (c : Dev nD) (t : Fin cfg0.N) : Vec Ideal S12x64 .f32 := iblk m c 0 t
/-- The part of point t's column block that lies inside the [12, 100000] array. -/
abbrev xpart (c : Dev nD) (t : Fin cfg0.N) : (win0_1.xblock (grid0.coords t)).Idx → Elt Ideal .f32 := iblk m c 1 t
/-- That part filled out to a whole [12, 32768] block with zero. -/
abbrev xblk (c : Dev nD) (t : Fin cfg0.N) : Vec Ideal S12x32768 .f32 :=
  win0_1.fill (grid0.coords t) (fun _ => (0 : EReal)) (xpart m c t)

/-- The column block is never cut on its twelve rows; -/
theorem rows_whole : ∀ t : Fin cfg0.N, win0_1.xsize (grid0.coords t) 0 = 12 :=
  (by decide +kernel : ∀ t : Fin grid0.N, win0_1.xsize (grid0.coords t) 0 = 12)
/-- and the result's block is cut on the columns exactly where the column block is. -/
theorem cols_alike : ∀ t : Fin cfg0.N, win0_2.xsize (grid0.coords t) 1 = win0_1.xsize (grid0.coords t) 1 :=
  (by decide +kernel : ∀ t : Fin grid0.N, win0_2.xsize (grid0.coords t) 1 = win0_1.xsize (grid0.coords t) 1)

/-- At a position the fetch fills, a filled block does not depend on what it was filled out with. -/
theorem fill_moved (i : grid0.Coords) (d d' : Vec Ideal S12x32768 .f32) (g : (win0_1.xblock i).Idx → Elt Ideal .f32)
    (y : S12x32768.Idx) (hm : win0_1.moved i y = true) : win0_1.fill i d g y = win0_1.fill i d' g y := by
  unfold Window.fill; rw [dif_pos hm, dif_pos hm]

/-- On the columns written back, the product with the block as fetched (its tail anything) is the product with the
    block filled out with zero. -/
theorem cut_pay (c : Dev nD) (t : Fin cfg0.N) (d1 : Vec Ideal S12x32768 .f32) :
    win0_2.cut (grid0.coords t) (k0_pay1 (F := Ideal) (wblk m c t) (win0_1.fill (grid0.coords t) d1 (xpart m c t)))
      = win0_2.cut (grid0.coords t) (k0_pay1 (F := Ideal) (wblk m c t) (xblk m c t)) := by
  funext j
  obtain ⟨h, q, hy, hq⟩ : ∃ (h : Fin 64) (q : Fin 32768), win0_2.xinj (grid0.coords t) j = ix2 h q ∧ q.val = (j 1).val :=
    ⟨(win0_2.xinj (grid0.coords t) j) 0, (win0_2.xinj (grid0.coords t) j) 1, eq_ix2 (n0 := 64) (n1 := 32768) _, rfl⟩
  show k0_pay1 (F := Ideal) _ _ (win0_2.xinj (grid0.coords t) j) = k0_pay1 (F := Ideal) _ _ (win0_2.xinj (grid0.coords t) j)
  rw [hy]
  refine pay_cols _ _ _ h q fun k => fill_moved _ _ _ _ _ ((win0_1.moved_iff _ _).mpr fun a => ?_)
  match a with
  | ⟨0, _⟩ => show k.val < win0_1.xsize (grid0.coords t) 0; rw [rows_whole t]; exact k.isLt
  | ⟨1, _⟩ => show q.val < win0_1.xsize (grid0.coords t) 1; rw [hq, ← cols_alike t]; exact (j 1).isLt

/-! ## The proof data -/

/-- The arrays as the region finds them; after the body at point t the three buffers as said above; the
    invariant the scoped rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => wblk m c t
    | ⟨1, _⟩ => xblk m c t
    | ⟨2, _⟩ => k0_pay1 (F := Ideal) (wblk m c t) (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = xblk m c t := by dsimp only [dats]
theorem after2 (c : Dev nD) (t : Fin cfg0.N) :
    (dats m 0 c).after 2 t = k0_pay1 (F := Ideal) (wblk m c t) (xblk m c t) := by dsimp only [dats]

/-- The weights' buffer holds the weights at every point, fetched there or not. -/
theorem before0 (c : Dev nD) (t : Fin cfg0.N) (d) : (dats m 0 c).before 0 t d = iblk m c 0 t :=
  before0_0_of m (dats m 0 c) (A_eq m c 0) (after0 m c) t d
/-- The column block's buffer is fetched at every point: the block's part inside the array, anything past it. -/
theorem before1 (c : Dev nD) (t : Fin cfg0.N) (d) :
    (dats m 0 c).before 1 t d = win0_1.fill (grid0.coords t) d (xpart m c t) := by
  rw [Dat.before_fetched _ 1 t (fetch0_1 t)]
  unfold Dat.fetched Dat.blockOf
  dsimp only [dats]
  rfl
/-- The result's buffer holds anything: every point writes it back. -/
theorem before2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two clipped windows' buffers stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  have e1 : win0_1.fill (grid0.coords t) (fun _ => (0 : EReal)) (xpart m c t) = xblk m c t := rfl
  iintro ⟨HΦ, Ho, ⟨%d0, H0⟩, ⟨%d1, H1⟩, ⟨%d2, H2⟩⟩
  rw [before0 m c t d0, before1 m c t d1, before2 m c t d2]
  iapply (sound_kernel (F := Ideal) c Set.univ (grid0.coords t) _ _ _ _ _ _ (wblk m c t)
    (win0_1.fill (grid0.coords t) d1 (xpart m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after0]; iexact H0
  isplitl [H1]
  · iexists d1
    rw [after1, win0_1.cut_fill]; iexact H1
  · iexists k0_pay1 (F := Ideal) (wblk m c t) (win0_1.fill (grid0.coords t) d1 (xpart m c t))
    rw [after2, ← cut_pay m c t d1, win0_2.fill_cut]; iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main ends with each array of the pipeline at what the proof data compute and
    every other buffer as the transpose after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel's frame: it runs to the end and its two arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.Final.lean ====
/-
  The transposed result after the run, as one function of the arrays the region finds.

  Point t writes back columns 32768 t .. of the [64, 100000] array, as many as lie inside it: all 32768 at the
  first three points, 1696 at the last. The four column ranges together are all 100000 columns, so every entry of
  the array is written, and entry (h, n) ends at the sum over k of wT[k, h] * fT[k, n], where wT is the [12, 64]
  array of transposed weights and fT the [12, 100000] array of transposed features: the weights' block is the
  whole array at every point, and column q of point t's block of fT is column 32768 t + q of fT.
-/
import proofs.«128156_g55482387530029_cont_9to1_m_211_22_alg».proof.Proof.RunIdeal
import Idealize.ShloMosaic.Lib.Pipeline.Value

set_option maxRecDepth 16384

noncomputable section

namespace Cert.KernelIdeal.Final

open Cert.KernelIdeal Cert.KernelIdeal.Gen Cert.KernelIdeal.Payload Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The transposed weights and the transposed features as the region finds them. -/
abbrev wT (c : Dev nD) : Vec Ideal S12x64 .f32 := V m c main_v1
abbrev fT (c : Dev nD) : Vec Ideal S12x100000 .f32 := V m c main_v0

/-- The transposed result: entry (h, n) is the sum over k of wT[k, h] * fT[k, n]. -/
def outT (c : Dev nD) : Vec Ideal S64x100000 .f32 := fun i =>
  ∑ k : Fin 12, wT m c (ix2 k (⟨(i 0).val, idx2_lt0 i⟩ : Fin 64)) * fT m c (ix2 k (⟨(i 1).val, idx2_lt1 i⟩ : Fin 100000))

/-- The printed index maps, decided over the four points: the weights' block index is (0, 0), the column block's
    and the result's are (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val)

/-- How many rows and columns of the result's block each point writes back: all 64 rows; 32768 columns at the
    first three points and the 1696 left at the last. -/
theorem ext_facts : ∀ t : Fin cfg0.N, win0_2.xsize (grid0.coords t) (0 : Fin 2) = 64
    ∧ ((t.val < 3 ∧ win0_2.xsize (grid0.coords t) (1 : Fin 2) = 32768) ∨ (t.val = 3 ∧ win0_2.xsize (grid0.coords t) (1 : Fin 2) = 1696)) :=
  (by decide +kernel : ∀ t : Fin grid0.N, win0_2.xsize (grid0.coords t) (0 : Fin 2) = 64
    ∧ ((t.val < 3 ∧ win0_2.xsize (grid0.coords t) (1 : Fin 2) = 32768) ∨ (t.val = 3 ∧ win0_2.xsize (grid0.coords t) (1 : Fin 2) = 1696)))

/-- The weights' block at any point is the whole array. -/
theorem wblk_apply (c : Dev nD) (t : Fin cfg0.N) (k : Fin 12) (h : Fin 64) :
    wblk m c t (ix2 k h) = wT m c (ix2 k h) := by
  obtain ⟨e00, e01, -⟩ := idx_facts t
  show V m c main_v1 (((cfg0.win 0).blk t).view.emb (ix2 k h)) = V m c main_v1 (ix2 k h)
  refine congrArg _ (funext fun a => Fin.ext ?_)
  match a with
  | ⟨0, _⟩ => show win0_0.index t (0 : Fin 2) * 12 + 1 * k.val = k.val; omega
  | ⟨1, _⟩ => show win0_0.index t (1 : Fin 2) * 64 + 1 * h.val = h.val; omega

/-- A column of point t's block that the fetch fills is column 32768 t + q of the transposed features. -/
theorem xblk_apply (c : Dev nD) (t : Fin cfg0.N) (k : Fin 12) (q : Fin 32768)
    (hq : q.val < win0_1.xsize (grid0.coords t) 1) (y : S12x100000.Idx)
    (hy0 : (y 0).val = k.val) (hy1 : (y 1).val = 32768 * t.val + q.val) :
    xblk m c t (ix2 k q) = fT m c y := by
  have hm : win0_1.moved (grid0.coords t) (ix2 k q) = true := (win0_1.moved_iff _ _).mpr fun a => by
    match a with
    | ⟨0, _⟩ => show k.val < win0_1.xsize (grid0.coords t) 0; rw [rows_whole t]; exact k.isLt
    | ⟨1, _⟩ => exact hq
  obtain ⟨-, -, e10, e11, -⟩ := idx_facts t
  show win0_1.fill (grid0.coords t) _ (xpart m c t) (ix2 k q) = _
  unfold Window.fill
  rw [dif_pos hm]
  show V m c main_v0 (((cfg0.win 1).blk t).view.emb _) = V m c main_v0 y
  refine congrArg _ (funext fun a => Fin.ext ?_)
  match a with
  | ⟨0, _⟩ => show win0_1.index t (0 : Fin 2) * 12 + 1 * k.val = (y 0).val; omega
  | ⟨1, _⟩ => show win0_1.index t (1 : Fin 2) * 32768 + 1 * q.val = (y 1).val; omega

/-- WHAT POINT t WRITES BACK is block t of the transposed result. -/
theorem flushed_eq (c : Dev nD) (t : Fin cfg0.N) :
    (dats m 0 c).flushed 2 t = ((cfg0.win 2).blk t).view.read (Elt Ideal) (outT m c) := by
  show (cfg0.win 2).cut (grid0.coords t) ((dats m 0 c).after 2 t) = _
  rw [after2]
  obtain ⟨-, -, -, -, e20, e21⟩ := idx_facts t
  funext j
  obtain ⟨h, q, hy, hh, hq⟩ : ∃ (h : Fin 64) (q : Fin 32768),
      win0_2.xinj (grid0.coords t) j = ix2 h q ∧ h.val = (j 0).val ∧ q.val = (j 1).val :=
    ⟨(win0_2.xinj (grid0.coords t) j) 0, (win0_2.xinj (grid0.coords t) j) 1, eq_ix2 (n0 := 64) (n1 := 32768) _, rfl, rfl⟩
  show k0_pay1 (F := Ideal) (wblk m c t) (xblk m c t) (win0_2.xinj (grid0.coords t) j)
    = outT m c (((cfg0.win 2).blk t).view.emb j)
  rw [hy, pay_apply]
  unfold outT
  refine Finset.sum_congr rfl fun k _ => ?_
  have hcol : q.val < win0_1.xsize (grid0.coords t) 1 := by rw [hq, ← cols_alike t]; exact (j 1).isLt
  have er : (⟨((((cfg0.win 2).blk t).view.emb j) 0).val, idx2_lt0 _⟩ : Fin 64) = h := Fin.ext (by
    show win0_2.index t (0 : Fin 2) * 64 + 1 * (j 0).val = h.val; omega)
  rw [wblk_apply, er]
  refine congrArg _ (xblk_apply m c t k q hcol _ rfl ?_)
  show win0_2.index t (1 : Fin 2) * 32768 + 1 * (j 1).val = 32768 * t.val + q.val
  omega

/-- An entry of the array is in point t's block iff each coordinate is in the part of the block inside the array. -/
theorem mem_blk (t : Fin cfg0.N) (i : S64x100000.Idx) :
    i ∈ ((cfg0.win 2).blk t).view.set ↔ ∀ a : Fin 2, win0_2.index t a * S64x32768.size a ≤ (i a).val
      ∧ (i a).val < win0_2.index t a * S64x32768.size a + win0_2.xsize (grid0.coords t) a := by
  show i ∈ ((View.whole main_v2).slice (win0_2.rect t)).set ↔ _
  rw [View.set_slice_whole, Rect.mem_set_unit]
  exact Iff.rfl

/-- Every entry is written: column n lies in the block of point n / 32768. -/
theorem covered (i : S64x100000.Idx) :
    ∃ t : Fin cfg0.N, (cfg0.win 2).flush t = true ∧ i ∈ ((cfg0.win 2).blk t).view.set := by
  have hi0 : (i 0).val < 64 := idx2_lt0 i
  have hi1 : (i 1).val < 100000 := idx2_lt1 i
  have hN : cfg0.N = 4 := N_0
  let t : Fin cfg0.N := ⟨(i 1).val / 32768, by rw [hN]; omega⟩
  have ht : t.val = (i 1).val / 32768 := rfl
  obtain ⟨-, -, -, -, e20, e21⟩ := idx_facts t
  obtain ⟨x0, x1⟩ := ext_facts t
  refine ⟨t, flush0_2 t, (mem_blk t i).mpr fun a => ?_⟩
  match a with
  | ⟨0, _⟩ =>
    show win0_2.index t (0 : Fin 2) * 64 ≤ (i 0).val ∧ (i 0).val < win0_2.index t (0 : Fin 2) * 64 + win0_2.xsize (grid0.coords t) (0 : Fin 2)
    omega
  | ⟨1, _⟩ =>
    show win0_2.index t (1 : Fin 2) * 32768 ≤ (i 1).val ∧ (i 1).val < win0_2.index t (1 : Fin 2) * 32768 + win0_2.xsize (grid0.coords t) (1 : Fin 2)
    omega

/-- THE ARRAY after the run is the transposed result. -/
theorem final (c : Dev nD) : (dats m 0 c).arrAt 2 cfg0.N = outT m c :=
  (dats m 0 c).arrAt_eq_of_cover 2 (outT m c) (fun t _ => flushed_eq m c t) covered

end Cert.KernelIdeal.Final

end
-- ==== Proof.Spec.lean ====
/-
  The specification: a linear layer without bias.

  For features x of shape [100000, 12] and weights w of shape [64, 12], the result z of shape [100000, 64] has
  z[n, h] = the sum over k of x[n, k] * w[h, k], over the extended reals. Both programs are shown to end at this
  one function of their two arguments.
-/
import Idealize.ShloMosaic.Lib.ValueIdx
import Idealize.ShloMosaic.PureOps.Ideal.Laws

noncomputable section

namespace Cert.Spec

open Idealize.ShloMosaic Idealize.ShloMosaic.ValueIdx

/-- z[n, h] = sum over k of x[n, k] * w[h, k]. -/
def linear (x : FVec Ideal ⟨2, ![100000, 12]⟩ .f32) (w : FVec Ideal ⟨2, ![64, 12]⟩ .f32) :
    FVec Ideal ⟨2, ![100000, 64]⟩ .f32 := fun i =>
  ∑ k : Fin 12, x (ix2 (⟨(i 0).val, idx2_lt0 i⟩ : Fin 100000) k) * w (ix2 (⟨(i 1).val, idx2_lt1 i⟩ : Fin 64) k)

end Cert.Spec

end
-- ==== Proof.Bridge.lean ====
/-
  The idealized kernel's result is the specification.

  Around the region @main transposes: before it, the features to [12, 100000] and the weights to [12, 64]; after it,
  the region's [64, 100000] array to the [100000, 64] result. So the result's entry (n, h) is the region's entry
  (h, n), the sum over k of wT[k, h] * fT[k, n] = the sum over k of w[h, k] * x[n, k], and multiplication on the
  extended reals is commutative.
-/
import proofs.«128156_g55482387530029_cont_9to1_m_211_22_alg».proof.Proof.Final
import proofs.«128156_g55482387530029_cont_9to1_m_211_22_alg».proof.Proof.Spec
import Idealize.ShloMosaic.Lib.StableHlo.Run
import Idealize.ShloMosaic.Lib.Pipeline.Value

set_option maxRecDepth 16384

noncomputable section

namespace Cert.KernelIdeal.Bridge

open Cert.KernelIdeal Cert.KernelIdeal.Gen Cert.KernelIdeal.Run Cert.KernelIdeal.Final
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ)

/-- The region finds the weights transposed, -/
theorem wT_eq (c : Dev nD) :
    wT m c = transpose S12x64 [1, 0] (m ((c : Thread nD τ).loc main_arg1)) transposes_S64x12_S12x64_1_0 := by
  show StableHlo.after hostOps0 (fun b => m (c, b)) (Proc.devRef .tc main_v1) = _
  after_results

/-- and the features transposed. -/
theorem fT_eq (c : Dev nD) :
    fT m c = transpose S12x100000 [1, 0] (m ((c : Thread nD τ).loc main_arg0)) transposes_S100000x12_S12x100000_1_0 := by
  show StableHlo.after hostOps0 (fun b => m (c, b)) (Proc.devRef .tc main_v0) = _
  after_results

theorem wT_apply (c : Dev nD) (k : Fin 12) (h : Fin 64) :
    wT m c (ix2 k h) = m ((c : Thread nD τ).loc main_arg1) (ix2 h k) := by
  rw [wT_eq]
  exact transpose_apply [1, 0] _ transposes_S64x12_S12x64_1_0 (ix2 k h) (ix2 h k)
    (fun b => match b with | ⟨0, _⟩ => rfl | ⟨1, _⟩ => rfl)

theorem fT_apply (c : Dev nD) (k : Fin 12) (n : Fin 100000) :
    fT m c (ix2 k n) = m ((c : Thread nD τ).loc main_arg0) (ix2 n k) := by
  rw [fT_eq]
  exact transpose_apply [1, 0] _ transposes_S100000x12_S12x100000_1_0 (ix2 k n) (ix2 n k)
    (fun b => match b with | ⟨0, _⟩ => rfl | ⟨1, _⟩ => rfl)

/-- After the region the result of @main is the transpose of the region's array. -/
theorem tail_eq (c : Dev nD) : Pipeline.afterTail₀ cfgs (dats m) 0 (V0 m) [hostOps1] c main_v3
    = transpose S100000x64 [1, 0] (outT m c) transposes_S64x100000_S100000x64_1_0 := by
  unfold Pipeline.afterTail₀
  show StableHlo.after hostOps1 _ (Proc.devRef .tc main_v3) = _
  after_results
  exact congrArg (fun x => transpose S100000x64 [1, 0] x transposes_S64x100000_S100000x64_1_0)
    ((Pipeline.withArrays_arr spec0 launch0.win.arr_inj c _ _ 2).trans (final m c))

/-- The result of @main, as a function of the two arguments, is the linear layer. -/
theorem result_eq (c : Dev nD) : Pipeline.afterTail₀ cfgs (dats m) 0 (V0 m) [hostOps1] c main_v3
    = Cert.Spec.linear (m ((c : Thread nD τ).loc main_arg0)) (m ((c : Thread nD τ).loc main_arg1)) := by
  rw [tail_eq]
  funext i
  have hi0 : (i 0).val < 100000 := idx2_lt0 i
  have hi1 : (i 1).val < 64 := idx2_lt1 i
  rw [transpose_apply [1, 0] (outT m c) transposes_S64x100000_S100000x64_1_0 i
    (ix2 (⟨(i 1).val, hi1⟩ : Fin 64) (⟨(i 0).val, hi0⟩ : Fin 100000))
    (fun b => match b with | ⟨0, _⟩ => rfl | ⟨1, _⟩ => rfl)]
  unfold outT Cert.Spec.linear
  refine Finset.sum_congr rfl fun k _ => ?_
  rw [wT_apply, fT_apply]
  exact mul_comm _ _

end Cert.KernelIdeal.Bridge

end
-- ==== Proof.RefSpec.lean ====
/-
  The reference is the specification.

  The reference transposes the weights to [12, 64] and takes the host's product of the [100000, 12] features with
  them, contracting the features' axis 1 with the transposed weights' axis 0. Over the extended reals entry (n, h) of
  that product is the sum over k of x[n, k] * wT[k, h], and wT[k, h] is w[h, k].
-/
import proofs.«128156_g55482387530029_cont_9to1_m_211_22_alg».proof.Proof.Gen.ReferenceIdeal.Read
import proofs.«128156_g55482387530029_cont_9to1_m_211_22_alg».proof.Proof.Spec

noncomputable section

namespace Cert.ReferenceIdeal.RefSpec

open Cert.ReferenceIdeal Cert.ReferenceIdeal.Gen Cert.ReferenceIdeal.Read
open Idealize.ShloMosaic Idealize.ShloMosaic.ValueIdx

/-- The reference's result, as a function of its two arguments, is the linear layer. -/
theorem ref_eq (x0 : (⟨S100000x12, .f32⟩ : BufTy).Contents (Elt Ideal)) (x1 : (⟨S64x12, .f32⟩ : BufTy).Contents (Elt Ideal)) :
    val_main_v1 (F := Ideal) x0 x1 = Cert.Spec.linear x0 x1 := by
  funext i
  rw [val_main_v1_apply]
  unfold Cert.Spec.linear
  refine Finset.sum_congr rfl fun k _ => ?_
  rw [val_main_v0_apply]
  have el : lidx_main_v1 i k = ix2 (⟨(i 0).val, idx2_lt0 i⟩ : Fin 100000) k :=
    funext fun a => Fin.ext (by match a with | ⟨0, _⟩ => rfl | ⟨1, _⟩ => rfl)
  have er : idx_main_v0 (ridx_main_v1 i k) = ix2 (⟨(i 1).val, idx2_lt1 i⟩ : Fin 64) k :=
    funext fun a => Fin.ext (by match a with | ⟨0, _⟩ => rfl | ⟨1, _⟩ => rfl)
  rw [el, er]

end Cert.ReferenceIdeal.RefSpec

end
-- ==== Proof.lean ====
/-
  A bias-free linear layer, z = features * W_fc^T for features of shape [100000, 12] and W_fc of shape [64, 12],
  computed by a kernel on the transposed problem against the plain product.

  The kernel transposes both arguments, computes the [64, 100000] array W_fc * features^T in four column blocks
  of 32768 (the last block hangs over the array's end and is clipped to 1696 columns), each block the matrix
  unit's product of the [12, 64] transposed weights with a [12, 32768] block of transposed features, contracted
  over the twelve rows, and transposes the result back. The reference takes the host's product of the features with
  the transposed weights. Over the extended reals both results have at (n, h) a sum over the same twelve k:
  the kernel's of W_fc[h, k] * features[n, k], the reference's of features[n, k] * W_fc[h, k]; they agree term by
  term by commutativity of the product, with no use of the inputs being finite.

  The frames. The idealized kernel's run names every array, the clipped windows' buffers on the columns inside the
  arrays only. The word-level kernel's frame forgets the result's window: there the matrix unit's product is a
  function of its whole operands that nothing unfolds, so the stored block is not named, and the frame claims
  nothing of it. The reference has no kernel: its frame is its run with the result dropped. The ideal pass rewrote
  nothing, so the idealization claim has no conjunct.
-/
import proofs.«128156_g55482387530029_cont_9to1_m_211_22_alg».proof.Defs
import proofs.«128156_g55482387530029_cont_9to1_m_211_22_alg».proof.Proof.Gen.Kernel
import proofs.«128156_g55482387530029_cont_9to1_m_211_22_alg».proof.Proof.Gen.Kernel.Skeleton
import proofs.«128156_g55482387530029_cont_9to1_m_211_22_alg».proof.Proof.Gen.Kernel.Launch
import proofs.«128156_g55482387530029_cont_9to1_m_211_22_alg».proof.Proof.Gen.Kernel.Points
import proofs.«128156_g55482387530029_cont_9to1_m_211_22_alg».proof.Proof.Gen.Kernel.Frame
import proofs.«128156_g55482387530029_cont_9to1_m_211_22_alg».proof.Proof.Gen.KernelIdeal
import proofs.«128156_g55482387530029_cont_9to1_m_211_22_alg».proof.Proof.Gen.KernelIdeal.Skeleton
import proofs.«128156_g55482387530029_cont_9to1_m_211_22_alg».proof.Proof.Gen.KernelIdeal.Launch
import proofs.«128156_g55482387530029_cont_9to1_m_211_22_alg».proof.Proof.Gen.KernelIdeal.Points
import proofs.«128156_g55482387530029_cont_9to1_m_211_22_alg».proof.Proof.Gen.KernelIdeal.Frame
import proofs.«128156_g55482387530029_cont_9to1_m_211_22_alg».proof.Proof.Gen.ReferenceIdeal
import proofs.«128156_g55482387530029_cont_9to1_m_211_22_alg».proof.Proof.Gen.Pre_finite_inputs
import proofs.«128156_g55482387530029_cont_9to1_m_211_22_alg».proof.Proof.Gen.ReferenceIdeal.Run
import proofs.«128156_g55482387530029_cont_9to1_m_211_22_alg».proof.Proof.Gen.ReferenceIdeal.Read
import proofs.«128156_g55482387530029_cont_9to1_m_211_22_alg».proof.Proof.FrameBits
import proofs.«128156_g55482387530029_cont_9to1_m_211_22_alg».proof.Proof.RunIdeal
import proofs.«128156_g55482387530029_cont_9to1_m_211_22_alg».proof.Proof.Bridge
import proofs.«128156_g55482387530029_cont_9to1_m_211_22_alg».proof.Proof.RefSpec
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Run.frame (F := Bits) m ρ

/-- So does the idealized kernel. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the linear layer of their arguments, which agree. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Run.run_main m ρ)
    · exact ((h c).2 Cert.KernelIdeal.main_v3 (Pipeline.mem_restRefs_of Cert.KernelIdeal.main_v3 (by decide) (by decide))).trans
        (Cert.KernelIdeal.Bridge.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Run.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Run.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.RefSpec.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
